-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x768 : Shape := ⟨3, ![64, 64, 768]⟩
abbrev S64x64x512 : Shape := ⟨3, ![64, 64, 512]⟩
abbrev S768 : Shape := ⟨1, ![768]⟩
abbrev S_ : Shape := ⟨0, ![]⟩

class Facts : Prop where
  bcast_S_S64x64x768 : S_.BroadcastsInDim S64x64x768 (![] : Fin 0 → Fin S64x64x768.rank)
  reducesTo_S64x64x768_S_d0_1_2 : S64x64x768.ReducesTo [0, 1, 2] S_
  h_S_ : 0 < S_.numel
  bcast_S_S64x64x512 : S_.BroadcastsInDim S64x64x512 (![] : Fin 0 → Fin S64x64x512.rank)
  reducesTo_S64x64x512_S_d0_1_2 : S64x64x512.ReducesTo [0, 1, 2] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x64x768 .f32) (main_arg1 : FVec F S64x64x512 .f32) (main_arg2 : FVec F S768 .f32) (main_arg3 : FVec F S768 .f32) : IVec S_ 1 :=
  let main_v0 : FVec F S64x64x768 .f32 := Host.absf main_arg0
  let main_cst : FVec F S_ .f32 := constant S_ .f32 0x7F800000#32
  let main_v1 : FVec F S64x64x768 .f32 := broadcastInDim S64x64x768 ![] bcast_S_S64x64x768 main_cst
  let main_v2 : IVec S64x64x768 1 := cmpf .olt main_v0 main_v1
  let main_c : IVec S_ 1 := constantI S_ 1 1#1
  let main_v3 : IVec S_ 1 := (fun x v => Host.reduce IntOp.andi x v reducesTo_S64x64x768_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x64x768 : Shape := ⟨3, ![64, 64, 768]⟩
abbrev S64x64x512 : Shape := ⟨3, ![64, 64, 512]⟩
abbrev S768 : Shape := ⟨1, ![768]⟩
abbrev S64x512x768 : Shape := ⟨3, ![64, 512, 768]⟩
abbrev S8x64x768 : Shape := ⟨3, ![8, 64, 768]⟩
abbrev S8x64x512 : Shape := ⟨3, ![8, 64, 512]⟩
abbrev S8x512x768 : Shape := ⟨3, ![8, 512, 768]⟩
abbrev S8x512 : Shape := ⟨2, ![8, 512]⟩
abbrev S8x512x1 : Shape := ⟨3, ![8, 512, 1]⟩
abbrev S1x1x768 : Shape := ⟨3, ![1, 1, 768]⟩

abbrev nBuf : Space → Nat
  | .hbm => 5
  | .vmem => 8
  | .smem => 0
  | _ => 0

abbrev bufTy : (tb : Table) → Fin (tcTables nBuf tb) → BufTy
  | .hbm, ⟨0, _⟩ => ⟨S64x64x768, .f32⟩
  | .hbm, ⟨1, _⟩ => ⟨S64x64x512, .f32⟩
  | .hbm, ⟨2, _⟩ => ⟨S768, .f32⟩
  | .hbm, ⟨3, _⟩ => ⟨S768, .f32⟩
  | .hbm, ⟨4, _⟩ => ⟨S64x512x768, .f32⟩
  | .local _ .vmem, ⟨0, _⟩ => ⟨S8x64x768, .f32⟩
  | .local _ .vmem, ⟨1, _⟩ => ⟨S8x64x768, .f32⟩
  | .local _ .vmem, ⟨2, _⟩ => ⟨S8x64x512, .f32⟩
  | .local _ .vmem, ⟨3, _⟩ => ⟨S8x64x512, .f32⟩
  | .local _ .vmem, ⟨4, _⟩ => ⟨S768, .f32⟩
  | .local _ .vmem, ⟨5, _⟩ => ⟨S768, .f32⟩
  | .local _ .vmem, ⟨6, _⟩ => ⟨S8x512x768, .f32⟩
  | .local _ .vmem, ⟨7, _⟩ => ⟨S8x512x768, .f32⟩
  | _, _ => ⟨S64x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x64x768_S8x64x768_0_0_0 : ∀ a, (![0, 0, 0] : Fin 3 → Nat) a + S8x64x768.size a ≤ S8x64x768.size a
  h_S8x64x768 : 0 < S8x64x768.numel
  inb_S8x64x512_S8x64x512_0_0_0 : ∀ a, (![0, 0, 0] : Fin 3 → Nat) a + S8x64x512.size a ≤ S8x64x512.size a
  h_S8x64x512 : 0 < S8x64x512.numel
  reduces_S8x512x768_S8x512 : S8x512x768.Reduces [2] S8x512
  shapeCasts_S8x512_S8x512x1 : S8x512.ShapeCasts S8x512x1
  broadcasts_S8x512x1_S8x512x768 : S8x512x1.Broadcasts S8x512x768
  inb_S768_S768_0 : ∀ a, (![0] : Fin 1 → Nat) a + S768.size a ≤ S768.size a
  h_S768 : 0 < S768.numel
  shapeCasts_S768_S1x1x768 : S768.ShapeCasts S1x1x768
  broadcasts_S1x1x768_S8x512x768 : S1x1x768.Broadcasts S8x512x768
  inb_S8x512x768_S8x512x768_0_0_0 : ∀ a, (![0, 0, 0] : Fin 3 → Nat) a + S8x512x768.size a ≤ S8x512x768.size a
  h_S8x512x768 : 0 < S8x512x768.numel
  dot_S8x64x512_S8x64x768_S8x512x768_1_1_2_2_0_0_wf : DotDims.WF S8x64x512 S8x64x768 S8x512x768 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x768.size a ≤ S64x64x768.size a
  hwx0_0 : ∀ i : grid0.Coords, EltTy.bits .f32 = 32 ∨ (Rect.block (s := S64x64x768) S8x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S64x64x512.size a
  hwx0_1 : ∀ i : grid0.Coords, EltTy.bits .f32 = 32 ∨ (Rect.block (s := S64x64x512) S8x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x768.size a ≤ S64x512x768.size a
  hwx0_4 : ∀ i : grid0.Coords, EltTy.bits .f32 = 32 ∨ (Rect.block (s := S64x512x768) S8x512x768.size (cc0_transform_4 i) (hinb0_4 i)).WholeWords (EltTy.packing .f32)

variable [Facts₀]

def dot_S8x64x512_S8x64x768_S8x512x768_1_1_2_2_0_0 : DotDims S8x64x512 S8x64x768 S8x512x768 where
  lhsContracting := [1]
  rhsContracting := [1]
  lhsNonContracting := [2]
  rhsNonContracting := [2]
  lhsBatch := [0]
  rhsBatch := [0]
  wf := dot_S8x64x512_S8x64x768_S8x512x768_1_1_2_2_0_0_wf

abbrev win0_0 : Pipeline.Window sig grid0 :=
  Pipeline.Window.ofSpec (Memref.whole main_arg0) S8x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x768 : Shape := ⟨3, ![64, 64, 768]⟩
abbrev S64x64x512 : Shape := ⟨3, ![64, 64, 512]⟩
abbrev S768 : Shape := ⟨1, ![768]⟩
abbrev S64x512x768 : Shape := ⟨3, ![64, 512, 768]⟩
abbrev S_ : Shape := ⟨0, ![]⟩
abbrev S64x512 : Shape := ⟨2, ![64, 512]⟩
abbrev S64x512x1 : Shape := ⟨3, ![64, 512, 1]⟩
abbrev S1x1x768 : Shape := ⟨3, ![1, 1, 768]⟩

abbrev nBuf : Space → Nat
  | .hbm => 34
  | .vmem => 0
  | .smem => 0
  | _ => 0

abbrev bufTy : (tb : Table) → Fin (tcTables nBuf tb) → BufTy
  | .hbm, ⟨0, _⟩ => ⟨S64x64x768, .f32⟩
  | .hbm, ⟨1, _⟩ => ⟨S64x64x512, .f32⟩
  | .hbm, ⟨2, _⟩ => ⟨S768, .f32⟩
  | .hbm, ⟨3, _⟩ => ⟨S768, .f32⟩
  | .hbm, ⟨4, _⟩ => ⟨S64x512x768, .f32⟩
  | .hbm, ⟨5, _⟩ => ⟨S_, .f32⟩
  | .hbm, ⟨6, _⟩ => ⟨S64x512, .f32⟩
  | .hbm, ⟨7, _⟩ => ⟨S64x512x1, .f32⟩
  | .hbm, ⟨8, _⟩ => ⟨S_, .f32⟩
  | .hbm, ⟨9, _⟩ => ⟨S64x512x1, .f32⟩
  | .hbm, ⟨10, _⟩ => ⟨S64x512x1, .f32⟩
  | .hbm, ⟨11, _⟩ => ⟨S64x512x768, .f32⟩
  | .hbm, ⟨12, _⟩ => ⟨S64x512x768, .f32⟩
  | .hbm, ⟨13, _⟩ => ⟨S64x512x768, .f32⟩
  | .hbm, ⟨14, _⟩ => ⟨S_, .f32⟩
  | .hbm, ⟨15, _⟩ => ⟨S64x512, .f32⟩
  | .hbm, ⟨16, _⟩ => ⟨S64x512x1, .f32⟩
  | .hbm, ⟨17, _⟩ => ⟨S_, .f32⟩
  | .hbm, ⟨18, _⟩ => ⟨S64x512x1, .f32⟩
  | .hbm, ⟨19, _⟩ => ⟨S64x512x1, .f32⟩
  | .hbm, ⟨20, _⟩ => ⟨S64x512x768, .f32⟩
  | .hbm, ⟨21, _⟩ => ⟨S64x512x768, .f32⟩
  | .hbm, ⟨22, _⟩ => ⟨S_, .f32⟩
  | .hbm, ⟨23, _⟩ => ⟨S64x512x1, .f32⟩
  | .hbm, ⟨24, _⟩ => ⟨S64x512x1, .f32⟩
  | .hbm, ⟨25, _⟩ => ⟨S64x512x1, .f32⟩
  | .hbm, ⟨26, _⟩ => ⟨S64x512x768, .f32⟩
  | .hbm, ⟨27, _⟩ => ⟨S64x512x768, .f32⟩
  | .hbm, ⟨28, _⟩ => ⟨S1x1x768, .f32⟩
  | .hbm, ⟨29, _⟩ => ⟨S64x512x768, .f32⟩
  | .hbm, ⟨30, _⟩ => ⟨S64x512x768, .f32⟩
  | .hbm, ⟨31, _⟩ => ⟨S1x1x768, .f32⟩
  | .hbm, ⟨32, _⟩ => ⟨S64x512x768, .f32⟩
  | .hbm, ⟨33, _⟩ => ⟨S64x512x768, .f32⟩
  | _, _ => ⟨S64x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S64x512x768_S64x512_d2 : S64x512x768.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x768_0_1_2 : S64x512x1.BroadcastsInDim S64x512x768 (![0, 1, 2] : Fin 3 → Fin S64x512x768.rank)
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  dot_S64x64x512_S64x64x768_S64x512x768_1_1_2_2_0_0_wf : DotDims.WF S64x64x512 S64x64x768 S64x512x768 [1] [1] [2] [2] [0] [0]

variable [Facts₀]

def dot_S64x64x512_S64x64x768_S64x512x768_1_1_2_2_0_0 : DotDims S64x64x512 S64x64x768 S64x512x768 where
  lhsContracting := [1]
  rhsContracting := [1]
  lhsNonContracting := [2]
  rhsNonContracting := [2]
  lhsBatch := [0]
  rhsBatch := [0]
  wf := dot_S64x64x512_S64x64x768_S64x512x768_1_1_2_2_0_0_wf

class Facts : Prop extends Facts₀ where

variable [Facts]
-- ==== Proof.ExpandNormSpec.lean ====
/-
  The function both programs compute, on the extended reals, index by index.

  For a batch entry n and a token l the ROW  expand n l : h ↦ Σ_e mapping (n, e, l) · state (n, e, h)  (the matrix product
  mappingᵀ · state of batch entry n, row l) is normalised along h:

      mean row      = (Σ_h row h) / 768
      centred row h = row h − mean row
      variance row  = mean (h ↦ (centred row h)²)
      normRow row γ β h = centred row h · (variance row + ε)^(−1/2) · γ h + β h

  with 768 and ε the two float constants both programs carry as the same words (0x44400000 and 0x2B8CBCCC): a shared
  constant is never evaluated here. The quotient is the ideal division and the inverse square root the ideal one, which both
  programs' division and rsqrt denote on the extended reals.
-/
import Idealize.ShloMosaic.PureOps.Ideal
import Idealize.ShloMosaic.Lib.ValueIdx

noncomputable section

open scoped BigOperators

namespace Cert.ExpandNorm

open Idealize.ShloMosaic Idealize.ShloMosaic.ValueIdx

/-- The row length as both programs write it: the word of the float `768.0`. -/
def rowLen : EReal := Ideal.ofBits .f32 0x44400000#32
/-- The variance offset as both programs write it: the word of the float nearest `1e-12`. -/
def eps : EReal := Ideal.ofBits .f32 0x2B8CBCCC#32

/-- The mean of a row of 768 entries. -/
def mean (row : Fin 768 → EReal) : EReal := Ideal.div (∑ k : Fin 768, row k) rowLen
/-- A row's entry less the row's mean. -/
def centred (row : Fin 768 → EReal) (h : Fin 768) : EReal := row h - mean row
/-- The mean of the squared centred entries. -/
def variance (row : Fin 768 → EReal) : EReal := mean fun k => centred row k * centred row k
/-- The normalised row, scaled by `γ` and shifted by `β`, at `h`. -/
def normRow (row γ β : Fin 768 → EReal) (h : Fin 768) : EReal :=
  centred row h * Ideal.rsqrt (variance row + eps) * γ h + β h

/-- Row `l` of `mappingᵀ · state` for batch entry `n`, at `h`: the sum over the 64 nodes `e` of
    `mapping (n, e, l) · state (n, e, h)`. Stated for any number `B` of batch entries: the whole arrays have 64, a block 8. -/
def expand {B : ℕ} (state : (⟨3, ![B, 64, 768]⟩ : Shape).Idx → EReal) (mapping : (⟨3, ![B, 64, 512]⟩ : Shape).Idx → EReal)
    (n : Fin B) (l : Fin 512) (h : Fin 768) : EReal :=
  ∑ e : Fin 64, mapping (ix3 n e l) * state (ix3 n e h)

/-- The result at `(n, l, h)`: row `l` of batch entry `n`'s product, normalised, scaled by `γ` and shifted by `β`. -/
def result {B : ℕ} (state : (⟨3, ![B, 64, 768]⟩ : Shape).Idx → EReal) (mapping : (⟨3, ![B, 64, 512]⟩ : Shape).Idx → EReal)
    (γ β : (⟨1, ![768]⟩ : Shape).Idx → EReal) (n : Fin B) (l : Fin 512) (h : Fin 768) : EReal :=
  normRow (expand state mapping n l) (fun k => γ (ix1 k)) (fun k => β (ix1 k)) h

/-- The whole result array: `result` at each index's coordinates. -/
def resultArray (state : (⟨3, ![64, 64, 768]⟩ : Shape).Idx → EReal) (mapping : (⟨3, ![64, 64, 512]⟩ : Shape).Idx → EReal)
    (γ β : (⟨1, ![768]⟩ : Shape).Idx → EReal) : (⟨3, ![64, 512, 768]⟩ : Shape).Idx → EReal :=
  fun i => result state mapping γ β (i 0) (i 1) (i 2)

end Cert.ExpandNorm

end
-- ==== Proof.LibKeepdimsLastAxis.lean ====
/-
  Layout operations of a rank-3 array whose LAST axis is reduced with the axis kept ("keepdims"), read at an index by
  coordinates, and the reduction itself:

  * a [a, b] array cast to [a, b, 1] reads, at (i, j, u), the operand at (i, j);
  * a [a, b, 1] array broadcast to [a, b, c] reads, at (i, j, k), the operand's one column entry (i, j, 0);
  * a [c] vector cast to [1, 1, c] reads, at (u, v, k), the operand at k;
  * a [1, 1, c] array broadcast to [a, b, c] reads, at (i, j, k), the operand at (0, 0, k);
  * on the extended reals the sum of an [a, b, c] array along its last axis is, at (i, j), the sum over k of the
    entries (i, j, k).

  Each is the library's general reading of the operation (the operand at the index with the same row-major position; the
  operand at the trailing coordinates, zero on its unit axes; the sum over the reduced axis's coordinates) with the index
  it names written out by coordinates for these shapes.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a, b]` array cast to `[a, b, 1]` reads, at `(i, j, u)`, the operand at `(i, j)`: the trailing unit axis adds
    nothing to the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand's entry `(i, j, 0)`: the one
    column repeated along the last axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp only [hu, hv, Nat.zero_mul, Nat.zero_add])

/-- A `[1, 1, c]` array broadcast to `[a, b, c]` reads, at `(i, j, k)`, the operand's entry `(0, 0, k)`: the one row
    repeated over the two leading axes. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]
  | ⟨2, _⟩ =>
    show k.val = if c = 1 then 0 else k.val
    split
    · have := k.isLt; omega
    · rfl

/-- On the extended reals, the sum of an `[a, b, c]` array along its last axis is, at `(i, j)`, the sum over `k` of its
    entries `(i, j, k)`. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with
      | ⟨0, _⟩ => rfl
      | ⟨1, _⟩ => rfl
      | ⟨2, _⟩ => rfl)))

end Cert.Lib.Keepdims

end
-- ==== Proof.BlockValue.lean ====
/-
  What the kernel body stores, read at an index of the block, is the specification `ExpandNorm.result` of the body's
  four loaded blocks.

  The body multiplies the mapping block (transposed) by the state block, batch entry by batch entry, into a zero
  accumulator: at `(p, q, r)` the sum over the 64 nodes `e` of `mapping (p, e, q) · state (p, e, r)`. It then sums each row along
  the last axis, keeps the sum as a column, divides by the row length and broadcasts the column back (the row's mean at
  every entry of the row); does the same to the squared differences (the variance), adds the offset, takes the inverse
  square root; and multiplies and adds the two parameter rows, broadcast over the two leading axes.
-/
import proofs.«117044_j84473416778477_1_alg».proof.Proof.Gen.KernelIdeal.Skeleton
import proofs.«117044_j84473416778477_1_alg».proof.Proof.ExpandNormSpec
import proofs.«117044_j84473416778477_1_alg».proof.Proof.LibKeepdimsLastAxis
import Idealize.ShloMosaic.Lib.ValueIdx
import Idealize.ShloMosaic.PureOps.Ideal.Laws

noncomputable section

open scoped BigOperators

namespace Cert.KernelIdeal.BlockValue

open Cert.KernelIdeal Cert.KernelIdeal.Gen Cert.ExpandNorm Cert.Lib.Keepdims
open Idealize.ShloMosaic Idealize.ShloMosaic.ValueIdx

/-! ## The batched product at an index -/

theorem lhs_batch (i : S8x512x768.Idx) (q : dot_S8x64x512_S8x64x768_S8x512x768_1_1_2_2_0_0.contr.Idx) :
    (dot_S8x64x512_S8x64x768_S8x512x768_1_1_2_2_0_0.lhsIdx i q 0).val = (i 0).val := by
  unfold DotDims.lhsIdx
  rw [dif_pos (show (0 : Fin S8x64x512.rank) ∈ dot_S8x64x512_S8x64x768_S8x512x768_1_1_2_2_0_0.lhsBatch by decide)]
  rfl
theorem lhs_contracted (i : S8x512x768.Idx) (q : dot_S8x64x512_S8x64x768_S8x512x768_1_1_2_2_0_0.contr.Idx) :
    (dot_S8x64x512_S8x64x768_S8x512x768_1_1_2_2_0_0.lhsIdx i q 1).val = (q ⟨0, by decide⟩).val :=
  dot_S8x64x512_S8x64x768_S8x512x768_1_1_2_2_0_0.lhsIdx_val_of_single rfl i q
theorem lhs_free (i : S8x512x768.Idx) (q : dot_S8x64x512_S8x64x768_S8x512x768_1_1_2_2_0_0.contr.Idx) :
    (dot_S8x64x512_S8x64x768_S8x512x768_1_1_2_2_0_0.lhsIdx i q 2).val = (i 1).val := by
  unfold DotDims.lhsIdx
  rw [dif_neg (show ¬(2 : Fin S8x64x512.rank) ∈ dot_S8x64x512_S8x64x768_S8x512x768_1_1_2_2_0_0.lhsBatch by decide),
    dif_pos (show (2 : Fin S8x64x512.rank) ∈ dot_S8x64x512_S8x64x768_S8x512x768_1_1_2_2_0_0.lhsNonContracting by decide)]
  rfl
theorem rhs_batch (i : S8x512x768.Idx) (q : dot_S8x64x512_S8x64x768_S8x512x768_1_1_2_2_0_0.contr.Idx) :
    (dot_S8x64x512_S8x64x768_S8x512x768_1_1_2_2_0_0.rhsIdx i q 0).val = (i 0).val := by
  unfold DotDims.rhsIdx
  rw [dif_pos (show (0 : Fin S8x64x768.rank) ∈ dot_S8x64x512_S8x64x768_S8x512x768_1_1_2_2_0_0.rhsBatch by decide)]
  rfl
theorem rhs_contracted (i : S8x512x768.Idx) (q : dot_S8x64x512_S8x64x768_S8x512x768_1_1_2_2_0_0.contr.Idx) :
    (dot_S8x64x512_S8x64x768_S8x512x768_1_1_2_2_0_0.rhsIdx i q 1).val = (q ⟨0, by decide⟩).val :=
  dot_S8x64x512_S8x64x768_S8x512x768_1_1_2_2_0_0.rhsIdx_val_of_single rfl i q
theorem rhs_free (i : S8x512x768.Idx) (q : dot_S8x64x512_S8x64x768_S8x512x768_1_1_2_2_0_0.contr.Idx) :
    (dot_S8x64x512_S8x64x768_S8x512x768_1_1_2_2_0_0.rhsIdx i q 2).val = (i 2).val := by
  unfold DotDims.rhsIdx
  rw [dif_neg (show ¬(2 : Fin S8x64x768.rank) ∈ dot_S8x64x512_S8x64x768_S8x512x768_1_1_2_2_0_0.rhsBatch by decide),
    dif_pos (show (2 : Fin S8x64x768.rank) ∈ dot_S8x64x512_S8x64x768_S8x512x768_1_1_2_2_0_0.rhsNonContracting by decide)]
  rfl

/-- The block product into the zero accumulator, at `(p, q, r)`: the sum over the nodes `e` of
    `mapping (p, e, q) · state (p, e, r)` — batch entry `p` of both operands, the node axis contracted. -/
theorem product_apply (x0 : FVec Ideal S8x64x768 .f32) (x1 : FVec Ideal S8x64x512 .f32) (p : Fin 8) (q : Fin 512) (r : Fin 768) :
    matmul dot_S8x64x512_S8x64x768_S8x512x768_1_1_2_2_0_0 none x1 x0 (constant S8x512x768 .f32 0x00000000#32) (ix3 p q r)
      = expand x0 x1 p q r := by
  simp only [matmul]
  rw [Ideal.matmul_constant_zero_apply,
    ← Equiv.sum_comp (contrEquiv1 dot_S8x64x512_S8x64x768_S8x512x768_1_1_2_2_0_0 64 rfl rfl).symm]
  refine Finset.sum_congr rfl fun k _ => ?_
  have hk := contrEquiv1_symm_val dot_S8x64x512_S8x64x768_S8x512x768_1_1_2_2_0_0 64 rfl rfl k
  have el : dot_S8x64x512_S8x64x768_S8x512x768_1_1_2_2_0_0.lhsIdx (ix3 p q r)
      ((contrEquiv1 dot_S8x64x512_S8x64x768_S8x512x768_1_1_2_2_0_0 64 rfl rfl).symm k) = ix3 p k q :=
    funext fun a => Fin.ext (by
      match a with
      | ⟨0, _⟩ => exact lhs_batch _ _
      | ⟨1, _⟩ => exact (lhs_contracted _ _).trans hk
      | ⟨2, _⟩ => exact lhs_free _ _)
  have er : dot_S8x64x512_S8x64x768_S8x512x768_1_1_2_2_0_0.rhsIdx (ix3 p q r)
      ((contrEquiv1 dot_S8x64x512_S8x64x768_S8x512x768_1_1_2_2_0_0 64 rfl rfl).symm k) = ix3 p k r :=
    funext fun a => Fin.ext (by
      match a with
      | ⟨0, _⟩ => exact rhs_batch _ _
      | ⟨1, _⟩ => exact (rhs_contracted _ _).trans hk
      | ⟨2, _⟩ => exact rhs_free _ _)
  rw [el, er]

/-! ## The body's three composite stages -/

/-- A block's row sums kept as a column, divided by the row length and broadcast back along the rows. -/
def meanCol (V : FVec Ideal S8x512x768 .f32) : FVec Ideal S8x512x768 .f32 :=
  broadcastTo S8x512x768
    (divf (shapeCast S8x512x1 (multiReduction .add [2] S8x512 V 0x00000000#32 reduces_S8x512x768_S8x512 (.inl rfl) rfl)
        shapeCasts_S8x512_S8x512x1) (broadcast S8x512x1 (Scalar.ofBits .f32 0x44400000#32)))
    broadcasts_S8x512x1_S8x512x768

/-- The inverse square root of (a block's row means plus the offset), broadcast back along the rows. -/
def rstdCol (W : FVec Ideal S8x512x768 .f32) : FVec Ideal S8x512x768 .f32 :=
  broadcastTo S8x512x768
    (rsqrt (addf (divf (shapeCast S8x512x1 (multiReduction .add [2] S8x512 W 0x00000000#32 reduces_S8x512x768_S8x512 (.inl rfl) rfl)
        shapeCasts_S8x512_S8x512x1) (broadcast S8x512x1 (Scalar.ofBits .f32 0x44400000#32)))
      (broadcast S8x512x1 (Scalar.ofBits .f32 0x2B8CBCCC#32))))
    broadcasts_S8x512x1_S8x512x768

/-- A parameter row broadcast over the two leading axes. -/
def paramRows (x : FVec Ideal S768 .f32) : FVec Ideal S8x512x768 .f32 :=
  broadcastTo S8x512x768 (shapeCast S1x1x768 x shapeCasts_S768_S1x1x768) broadcasts_S1x1x768_S8x512x768

theorem meanCol_apply (V : FVec Ideal S8x512x768 .f32) (p : Fin 8) (q : Fin 512) (r : Fin 768) :
    meanCol V (ix3 p q r) = mean fun k => V (ix3 p q k) := by
  unfold meanCol
  refine (broadcastTo_ab1_abc_apply _ broadcasts_S8x512x1_S8x512x768 p q r).trans ?_
  exact congrArg (fun s => Ideal.div s rowLen)
    ((shapeCast_ab_ab1_apply _ shapeCasts_S8x512_S8x512x1 p q 0).trans
      (multiReduction_add_last_apply V 0x00000000#32 reduces_S8x512x768_S8x512 (.inl rfl) rfl p q))

theorem rstdCol_apply (W : FVec Ideal S8x512x768 .f32) (p : Fin 8) (q : Fin 512) (r : Fin 768) :
    rstdCol W (ix3 p q r) = Ideal.rsqrt ((mean fun k => W (ix3 p q k)) + eps) := by
  unfold rstdCol
  refine (broadcastTo_ab1_abc_apply _ broadcasts_S8x512x1_S8x512x768 p q r).trans ?_
  exact congrArg (fun s => Ideal.rsqrt (Ideal.div s rowLen + eps))
    ((shapeCast_ab_ab1_apply _ shapeCasts_S8x512_S8x512x1 p q 0).trans
      (multiReduction_add_last_apply W 0x00000000#32 reduces_S8x512x768_S8x512 (.inl rfl) rfl p q))

theorem paramRows_apply (x : FVec Ideal S768 .f32) (p : Fin 8) (q : Fin 512) (r : Fin 768) :
    paramRows x (ix3 p q r) = x (ix1 r) := by
  unfold paramRows
  exact (broadcastTo_11c_abc_apply _ broadcasts_S1x1x768_S8x512x768 p q r).trans
    (shapeCast_c_11c_apply x shapeCasts_S768_S1x1x768 0 0 r)

/-! ## The stored value -/

/-- The body's stored value is the composition of those stages over the block product. -/
theorem payload_eq (x0 : FVec Ideal S8x64x768 .f32) (x1 : FVec Ideal S8x64x512 .f32) (x2 x3 : FVec Ideal S768 .f32) :
    k0_pay1 (F := Ideal) x0 x1 x2 x3
      = (fun V : FVec Ideal S8x512x768 .f32 =>
          addf (mulf (mulf (subf V (meanCol V)) (rstdCol (mulf (subf V (meanCol V)) (subf V (meanCol V))))) (paramRows x2))
            (paramRows x3))
        (matmul dot_S8x64x512_S8x64x768_S8x512x768_1_1_2_2_0_0 none x1 x0 (constant S8x512x768 .f32 0x00000000#32)) := rfl

/-- The stored value at `(p, q, r)` is the specification of the four loaded blocks there. -/
theorem payload_apply (x0 : FVec Ideal S8x64x768 .f32) (x1 : FVec Ideal S8x64x512 .f32) (x2 x3 : FVec Ideal S768 .f32)
    (p : Fin 8) (q : Fin 512) (r : Fin 768) :
    k0_pay1 (F := Ideal) x0 x1 x2 x3 (ix3 p q r) = result x0 x1 x2 x3 p q r := by
  rw [payload_eq]
  generalize hV : matmul dot_S8x64x512_S8x64x768_S8x512x768_1_1_2_2_0_0 none x1 x0 (constant S8x512x768 .f32 0x00000000#32) = V
  have hrow : ∀ k : Fin 768, V (ix3 p q k) = expand x0 x1 p q k := fun k => by rw [← hV]; exact product_apply x0 x1 p q k
  have hmean : (mean fun k => V (ix3 p q k)) = mean (expand x0 x1 p q) := congrArg mean (funext hrow)
  have hcent : ∀ k : Fin 768, V (ix3 p q k) - meanCol V (ix3 p q k) = centred (expand x0 x1 p q) k := fun k => by
    rw [meanCol_apply, hmean, hrow]; rfl
  show (V (ix3 p q r) - meanCol V (ix3 p q r))
        * rstdCol (mulf (subf V (meanCol V)) (subf V (meanCol V))) (ix3 p q r) * paramRows x2 (ix3 p q r)
      + paramRows x3 (ix3 p q r) = _
  rw [rstdCol_apply, paramRows_apply, paramRows_apply, hcent]
  have hvar : (mean fun k => (mulf (subf V (meanCol V)) (subf V (meanCol V))) (ix3 p q k)) = variance (expand x0 x1 p q) :=
    congrArg mean (funext fun k => by
      show (V (ix3 p q k) - meanCol V (ix3 p q k)) * (V (ix3 p q k) - meanCol V (ix3 p q k)) = _
      rw [hcent])
  rw [hvar]
  rfl

end Cert.KernelIdeal.BlockValue

end
-- ==== Proof.ArrayValue.lean ====
/-
  The kernel's result array after the run is the specification `ExpandNorm.resultArray` of the four argument arrays.

  The grid has 8 points. At point `t` the state, mapping and result windows hold batch entries `8t … 8t + 7` of their arrays
  (whole on the other two axes) and the two parameter windows hold their vectors whole. So an entry `(p, ·, ·)` of a
  block is entry `(8t + p, ·, ·)` of its array, the body's stored value at `(p, q, r)` is the specification at `(8t + p, q, r)`,
  what point `t` writes back is block `t` of the specification, and the 8 blocks cover the result array: index
  `(n, l, h)` lies in the block of point `n / 8`.
-/
import proofs.«117044_j84473416778477_1_alg».proof.Proof.Gen.KernelIdeal.Value
import proofs.«117044_j84473416778477_1_alg».proof.Proof.BlockValue
import Idealize.ShloMosaic.Lib.Pipeline.Value

noncomputable section

open scoped BigOperators

namespace Cert.KernelIdeal.ArrayValue

open Cert.KernelIdeal Cert.KernelIdeal.Gen Cert.KernelIdeal.BlockValue Cert.ExpandNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros1 : (![0] : Fin 1 → Nat) = fun _ => 0 := funext fun a => by fin_cases a <;> rfl

/-- The index maps over the grid: at point `t` the state, mapping and result blocks are block `t` along the batch axis and
    block 0 along the others; the parameter blocks are block 0. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-! ## The arrays and the blocks, at their literal shapes -/

abbrev stateArr (c : Dev nD) : FVec Ideal S64x64x768 .f32 := V m c main_arg0
abbrev mapArr (c : Dev nD) : FVec Ideal S64x64x512 .f32 := V m c main_arg1
abbrev gammaArr (c : Dev nD) : FVec Ideal S768 .f32 := V m c main_arg2
abbrev betaArr (c : Dev nD) : FVec Ideal S768 .f32 := V m c main_arg3
abbrev stateBlk (c : Dev nD) (t : Fin cfg0.N) : FVec Ideal S8x64x768 .f32 := iblk m c 0 t
abbrev mapBlk (c : Dev nD) (t : Fin cfg0.N) : FVec Ideal S8x64x512 .f32 := iblk m c 1 t
abbrev gammaBlk (c : Dev nD) (t : Fin cfg0.N) : FVec Ideal S768 .f32 := iblk m c 2 t
abbrev betaBlk (c : Dev nD) (t : Fin cfg0.N) : FVec Ideal S768 .f32 := iblk m c 3 t

/-- The specification of the argument arrays as the region finds them, as contents of the result buffer. -/
abbrev outArr (c : Dev nD) : Buf (Elt Ideal) ((c : Thread nD τ).loc main_v0) :=
  resultArray (stateArr m c) (mapArr m c) (gammaArr m c) (betaArr m c)

/-! ## A block's entry is its array's -/

theorem stateBlk_apply (c : Dev nD) (t : Fin cfg0.N) (p : Fin 8) (e : Fin 64) (h : Fin 768) (n : Fin 64)
    (hn : n.val = 8 * t.val + p.val) : stateBlk m c t (ix3 p e h) = stateArr m c (ix3 n e h) := by
  obtain ⟨e0, e1, e2, -⟩ := block_indices t
  show ((cfg0.win 0).blk t).view.read (Elt Ideal) (V m c (Pipeline.arrRef spec0 0)) (ix3 p e h) = _
  rw [View.read_apply]
  show V m c main_arg0 _ = V m c main_arg0 _
  congr 1
  funext a
  apply Fin.ext
  match a with
  | ⟨0, _⟩ => show win0_0.index t 0 * 8 + 1 * p.val = n.val; rw [e0, hn]; omega
  | ⟨1, _⟩ => show win0_0.index t 1 * 64 + 1 * e.val = e.val; rw [e1]; omega
  | ⟨2, _⟩ => show win0_0.index t 2 * 768 + 1 * h.val = h.val; rw [e2]; omega

theorem mapBlk_apply (c : Dev nD) (t : Fin cfg0.N) (p : Fin 8) (e : Fin 64) (l : Fin 512) (n : Fin 64)
    (hn : n.val = 8 * t.val + p.val) : mapBlk m c t (ix3 p e l) = mapArr m c (ix3 n e l) := by
  obtain ⟨-, -, -, e0, e1, e2, -⟩ := block_indices t
  show ((cfg0.win 1).blk t).view.read (Elt Ideal) (V m c (Pipeline.arrRef spec0 1)) (ix3 p e l) = _
  rw [View.read_apply]
  show V m c main_arg1 _ = V m c main_arg1 _
  congr 1
  funext a
  apply Fin.ext
  match a with
  | ⟨0, _⟩ => show win0_1.index t 0 * 8 + 1 * p.val = n.val; rw [e0, hn]; omega
  | ⟨1, _⟩ => show win0_1.index t 1 * 64 + 1 * e.val = e.val; rw [e1]; omega
  | ⟨2, _⟩ => show win0_1.index t 2 * 512 + 1 * l.val = l.val; rw [e2]; omega

theorem gammaBlk_apply (c : Dev nD) (t : Fin cfg0.N) (k : Fin 768) : gammaBlk m c t (ix1 k) = gammaArr m c (ix1 k) := by
  obtain ⟨-, -, -, -, -, -, e0, -⟩ := block_indices t
  show ((cfg0.win 2).blk t).view.read (Elt Ideal) (V m c (Pipeline.arrRef spec0 2)) (ix1 k) = _
  rw [View.read_apply]
  show V m c main_arg2 _ = V m c main_arg2 _
  congr 1
  funext a
  apply Fin.ext
  match a with
  | ⟨0, _⟩ => show win0_2.index t 0 * 768 + 1 * k.val = k.val; rw [e0]; omega

theorem betaBlk_apply (c : Dev nD) (t : Fin cfg0.N) (k : Fin 768) : betaBlk m c t (ix1 k) = betaArr m c (ix1 k) := by
  obtain ⟨-, -, -, -, -, -, -, e0, -⟩ := block_indices t
  show ((cfg0.win 3).blk t).view.read (Elt Ideal) (V m c (Pipeline.arrRef spec0 3)) (ix1 k) = _
  rw [View.read_apply]
  show V m c main_arg3 _ = V m c main_arg3 _
  congr 1
  funext a
  apply Fin.ext
  match a with
  | ⟨0, _⟩ => show win0_3.index t 0 * 768 + 1 * k.val = k.val; rw [e0]; omega

/-- The specification of point `t`'s blocks at `(p, q, r)` is the specification of the arrays at `(8t + p, q, r)`. -/
theorem result_block (c : Dev nD) (t : Fin cfg0.N) (p : Fin 8) (q : Fin 512) (r : Fin 768) (n : Fin 64)
    (hn : n.val = 8 * t.val + p.val) :
    result (stateBlk m c t) (mapBlk m c t) (gammaBlk m c t) (betaBlk m c t) p q r
      = result (stateArr m c) (mapArr m c) (gammaArr m c) (betaArr m c) n q r := by
  have hrow : expand (stateBlk m c t) (mapBlk m c t) p q = expand (stateArr m c) (mapArr m c) n q := funext fun h => by
    unfold expand
    refine Finset.sum_congr rfl fun e _ => ?_
    rw [stateBlk_apply m c t p e h n hn, mapBlk_apply m c t p e q n hn]
  have hγ : (fun k => gammaBlk m c t (ix1 k)) = fun k => gammaArr m c (ix1 k) := funext fun k => gammaBlk_apply m c t k
  have hβ : (fun k => betaBlk m c t (ix1 k)) = fun k => betaArr m c (ix1 k) := funext fun k => betaBlk_apply m c t k
  unfold result
  rw [hrow, hγ, hβ]

/-! ## What a point writes back, the cover, the array, the run -/

/-- What point `t` writes back is block `t` of the specification. -/
theorem flushed_eq (c : Dev nD) (t : Fin cfg0.N) :
    (dats m 0 c).flushed 4 t = ((cfg0.win 4).blk t).view.read (Elt Ideal) (outArr m c) := by
  rw [Cert.KernelIdeal.Value.flushed4]
  unfold out0_4
  rw [View.canon_unit_zero zeros3]
  simp only [View.ld_unit_zero (S := S8x64x768) zeros3, View.ld_unit_zero (S := S8x64x512) zeros3,
    View.ld_unit_zero (S := S768) zeros1]
  obtain ⟨-, -, -, -, -, -, -, -, e0, e1, e2⟩ := block_indices t
  have hN : cfg0.N = 8 := N_0
  funext j
  obtain ⟨p, q, r, rfl⟩ : ∃ (p : Fin 8) (q : Fin 512) (r : Fin 768), j = ix3 p q r := ⟨j 0, j 1, j 2, eq_ix3 j⟩
  have hn : 8 * t.val + p.val < 64 := by have ht : t.val < cfg0.N := t.isLt; omega
  have hemb : ((cfg0.win 4).blk t).view.emb (ix3 p q r) = (ix3 (⟨8 * t.val + p.val, hn⟩ : Fin 64) q r : S64x512x768.Idx) := by
    funext a
    apply Fin.ext
    match a with
    | ⟨0, _⟩ => show win0_4.index t 0 * 8 + 1 * p.val = 8 * t.val + p.val; rw [e0]; omega
    | ⟨1, _⟩ => show win0_4.index t 1 * 512 + 1 * q.val = q.val; rw [e1]; omega
    | ⟨2, _⟩ => show win0_4.index t 2 * 768 + 1 * r.val = r.val; rw [e2]; omega
  show k0_pay1 (F := Ideal) (stateBlk m c t) (mapBlk m c t) (gammaBlk m c t) (betaBlk m c t) (ix3 p q r)
      = outArr m c (((cfg0.win 4).blk t).view.emb (ix3 p q r))
  rw [hemb, payload_apply, result_block m c t p q r ⟨8 * t.val + p.val, hn⟩ rfl]
  rfl

/-- An index of the result array is in point `t`'s block iff each coordinate is in the block's range on its axis. -/
theorem mem_blk (t : Fin cfg0.N) (i : S64x512x768.Idx) :
    i ∈ ((cfg0.win 4).blk t).view.set ↔ ∀ a : Fin 3, win0_4.index t a * S8x512x768.size a ≤ (i a).val
      ∧ (i a).val < win0_4.index t a * S8x512x768.size a + S8x512x768.size a := by
  show i ∈ ((View.whole main_v0).slice (win0_4.rect t)).set ↔ _
  rw [View.set_slice_whole, Rect.mem_set_unit]
  exact Iff.rfl

/-- Every index `(n, l, h)` of the result array is in the block of point `n / 8`. -/
theorem covered (i : S64x512x768.Idx) :
    ∃ t : Fin cfg0.N, (cfg0.win 4).flush t = true ∧ i ∈ ((cfg0.win 4).blk t).view.set := by
  have hN : cfg0.N = 8 := N_0
  have hi0 : (i 0).val < 64 := (i 0).isLt
  have hi1 : (i 1).val < 512 := (i 1).isLt
  have hi2 : (i 2).val < 768 := (i 2).isLt
  have ht : (i 0).val / 8 < cfg0.N := by rw [hN]; omega
  obtain ⟨-, -, -, -, -, -, -, -, e0, e1, e2⟩ := block_indices ⟨(i 0).val / 8, ht⟩
  have e0' : win0_4.index ⟨(i 0).val / 8, ht⟩ 0 = (i 0).val / 8 := e0
  refine ⟨⟨(i 0).val / 8, ht⟩, flush0_4 _, ?_⟩
  rw [mem_blk]
  intro a
  match a with
  | ⟨0, _⟩ =>
    show win0_4.index ⟨(i 0).val / 8, ht⟩ 0 * 8 ≤ (i 0).val ∧ (i 0).val < win0_4.index ⟨(i 0).val / 8, ht⟩ 0 * 8 + 8
    rw [e0']; omega
  | ⟨1, _⟩ =>
    show win0_4.index ⟨(i 0).val / 8, ht⟩ 1 * 512 ≤ (i 1).val ∧ (i 1).val < win0_4.index ⟨(i 0).val / 8, ht⟩ 1 * 512 + 512
    rw [e1]; omega
  | ⟨2, _⟩ =>
    show win0_4.index ⟨(i 0).val / 8, ht⟩ 2 * 768 ≤ (i 2).val ∧ (i 2).val < win0_4.index ⟨(i 0).val / 8, ht⟩ 2 * 768 + 768
    rw [e2]; omega

/-- The result array after the run is the specification of the argument arrays. -/
theorem final (c : Dev nD) : (dats m 0 c).arrAt 4 cfg0.N = outArr m c :=
  (dats m 0 c).arrAt_eq_of_cover 4 (outArr m c) (fun t _ => flushed_eq m c t) covered

/-- The run, read: the result at the specification of the arguments as launched, the arguments unchanged. -/
theorem run : θ_run defs (onTc (τ := τ) (main (F := Ideal))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  The reference's result, read at an index, is the specification `ExpandNorm.resultArray` of its four arguments.

  The reference computes the batched product mappingᵀ · state with one `dot_general`, then normalises each row along
  its last axis with host reductions, divisions and an rsqrt. Read one stage at a time at an index `(n, l, h)`: the
  product is the sum over the contracted node axis; each row sum is the initial value `0` plus the sum over `h` of the
  operand; the keepdims broadcasts read the column entry `(n, l, 0)`; the parameter broadcasts read `γ h`, `β h`.
-/
import proofs.«117044_j84473416778477_1_alg».proof.Proof.Gen.ReferenceIdeal.Read
import proofs.«117044_j84473416778477_1_alg».proof.Proof.ExpandNormSpec
import Idealize.ShloMosaic.PureOps.Ideal.Laws

noncomputable section

open scoped BigOperators

namespace Cert.ReferenceIdeal.RefValue

open Cert.ReferenceIdeal Cert.ReferenceIdeal.Gen Cert.ReferenceIdeal.Read Cert.ExpandNorm
open Idealize.ShloMosaic Idealize.ShloMosaic.ValueIdx

variable (x0 : (⟨S64x64x768, .f32⟩ : BufTy).Contents (Elt Ideal)) (x1 : (⟨S64x64x512, .f32⟩ : BufTy).Contents (Elt Ideal))
variable (x2 x3 : (⟨S768, .f32⟩ : BufTy).Contents (Elt Ideal))

/-- Two rank-3 indices with the same three coordinates are one index. -/
local macro "same_coords3" : term =>
  `(funext fun a => by match a with | ⟨0, _⟩ => rfl | ⟨1, _⟩ => rfl | ⟨2, _⟩ => rfl)

/-- The `dot_general` at `(n, l, h)` is the sum over the nodes `e` of `mapping (n, e, l) · state (n, e, h)`. -/
theorem product_apply (n : Fin 64) (l : Fin 512) (h : Fin 768) :
    val_main_v0 (F := Ideal) x0 x1 (ix3 n l h) = expand x0 x1 n l h := by
  refine (val_main_v0_apply x0 x1 (ix3 n l h)).trans (Finset.sum_congr rfl fun e _ => ?_)
  rw [show lidx_main_v0 (ix3 n l h) e = ix3 n e l from same_coords3,
    show ridx_main_v0 (ix3 n l h) e = ix3 n e h from same_coords3]

/-- The first row sum divided by the row length, kept as a column: the mean of row `(n, l)` of the product. -/
theorem mean_apply (n : Fin 64) (l : Fin 512) (u : Fin 1) :
    val_main_v4 (F := Ideal) x0 x1 (ix3 n l u) = mean (expand x0 x1 n l) := by
  have e2 : val_main_v2 (F := Ideal) x0 x1 (ix3 n l u) = ∑ k : Fin 768, expand x0 x1 n l k := by
    rw [val_main_v2_apply, val_main_v1_apply,
      show val_main_cst (F := Ideal) (Shape.Idx.first h_S_) = 0 from Ideal.ofBits_zero_f32, zero_add]
    refine Finset.sum_congr rfl fun k _ => ?_
    rw [show idx_main_v1 (idx_main_v2 (ix3 n l u)) k = ix3 n l k from same_coords3]
    exact product_apply x0 x1 n l k
  have e3 : val_main_v3 (F := Ideal) (ix3 n l u) = rowLen := by
    rw [val_main_v3_apply]; rfl
  show Ideal.div (val_main_v2 (F := Ideal) x0 x1 (ix3 n l u)) (val_main_v3 (F := Ideal) (ix3 n l u)) = _
  rw [e2, e3]; rfl

/-- The product less the broadcast mean, as the variance's operand reads it. -/
theorem centred_apply (n : Fin 64) (l : Fin 512) (h : Fin 768) :
    val_main_v6 (F := Ideal) x0 x1 (ix3 n l h) = centred (expand x0 x1 n l) h := by
  show val_main_v0 (F := Ideal) x0 x1 (ix3 n l h) - val_main_v5 (F := Ideal) x0 x1 (ix3 n l h) = _
  rw [product_apply, val_main_v5_apply,
    show idx_main_v5 (ix3 n l h) = ix3 n l (0 : Fin 1) from same_coords3, mean_apply]
  rfl

/-- The same difference as the program computes it a second time, for the normalised value. -/
theorem centred_apply' (n : Fin 64) (l : Fin 512) (h : Fin 768) :
    val_main_v13 (F := Ideal) x0 x1 (ix3 n l h) = centred (expand x0 x1 n l) h := by
  show val_main_v0 (F := Ideal) x0 x1 (ix3 n l h) - val_main_v12 (F := Ideal) x0 x1 (ix3 n l h) = _
  rw [product_apply, val_main_v12_apply,
    show idx_main_v12 (ix3 n l h) = ix3 n l (0 : Fin 1) from same_coords3, mean_apply]
  rfl

/-- The second row sum, of the squared differences, divided by the row length: the variance of row `(n, l)`. -/
theorem variance_apply (n : Fin 64) (l : Fin 512) (u : Fin 1) :
    val_main_v11 (F := Ideal) x0 x1 (ix3 n l u) = variance (expand x0 x1 n l) := by
  have e9 : val_main_v9 (F := Ideal) x0 x1 (ix3 n l u)
      = ∑ k : Fin 768, centred (expand x0 x1 n l) k * centred (expand x0 x1 n l) k := by
    rw [val_main_v9_apply, val_main_v8_apply,
      show val_main_cst_1 (F := Ideal) (Shape.Idx.first h_S_) = 0 from Ideal.ofBits_zero_f32, zero_add]
    refine Finset.sum_congr rfl fun k _ => ?_
    rw [show idx_main_v8 (idx_main_v9 (ix3 n l u)) k = ix3 n l k from same_coords3]
    show val_main_v6 (F := Ideal) x0 x1 (ix3 n l k) * val_main_v6 (F := Ideal) x0 x1 (ix3 n l k) = _
    rw [centred_apply]
  have e10 : val_main_v10 (F := Ideal) (ix3 n l u) = rowLen := by
    rw [val_main_v10_apply]; rfl
  show Ideal.div (val_main_v9 (F := Ideal) x0 x1 (ix3 n l u)) (val_main_v10 (F := Ideal) (ix3 n l u)) = _
  rw [e9, e10]; rfl

/-- The inverse square root of the variance plus the offset, kept as a column. -/
theorem rstd_apply (n : Fin 64) (l : Fin 512) (u : Fin 1) :
    val_main_v16 (F := Ideal) x0 x1 (ix3 n l u) = Ideal.rsqrt (variance (expand x0 x1 n l) + eps) := by
  show Ideal.rsqrt (val_main_v11 (F := Ideal) x0 x1 (ix3 n l u) + val_main_v14 (F := Ideal) (ix3 n l u)) = _
  rw [variance_apply, val_main_v14_apply]
  rfl

/-- The reference's last stage is the specification, index by index. -/
theorem reference_eq : val_main_v24 (F := Ideal) x0 x1 x2 x3 = resultArray x0 x1 x2 x3 := by
  funext i
  obtain ⟨n, l, h, rfl⟩ : ∃ (n : Fin 64) (l : Fin 512) (h : Fin 768), i = ix3 n l h := ⟨i 0, i 1, i 2, eq_ix3 i⟩
  show val_main_v13 (F := Ideal) x0 x1 (ix3 n l h) * val_main_v17 (F := Ideal) x0 x1 (ix3 n l h)
        * val_main_v20 (F := Ideal) x2 (ix3 n l h) + val_main_v23 (F := Ideal) x3 (ix3 n l h) = _
  rw [centred_apply', val_main_v17_apply,
    show idx_main_v17 (ix3 n l h) = ix3 n l (0 : Fin 1) from same_coords3, rstd_apply,
    val_main_v20_apply, val_main_v19_apply, val_main_v23_apply, val_main_v22_apply,
    show idx_main_v19 (idx_main_v20 (ix3 n l h)) = ix1 h from funext fun a => by match a with | ⟨0, _⟩ => rfl,
    show idx_main_v22 (idx_main_v23 (ix3 n l h)) = ix1 h from funext fun a => by match a with | ⟨0, _⟩ => rfl]
  rfl

end Cert.ReferenceIdeal.RefValue

end
-- ==== Proof.lean ====
/-
  The kernel — the batched product mappingᵀ · state fused with a layer normalisation of each product row — against the
  reference, the same product as one `dot_general` followed by the normalisation written with host reductions.

  On the extended reals both compute, at `(n, l, h)`,

      (x h − μ) · (σ² + ε)^(−1/2) · γ h + β h,    x h = Σ_e mapping (n, e, l) · state (n, e, h),
      μ = (Σ_h x h) / 768,    σ² = (Σ_h (x h − μ)²) / 768,

  operation for operation and with the same two constants (768 and ε as the same words), so no law of arithmetic is
  needed and the inputs' finiteness is never used: the kernel's blocked product is the reference's product read eight
  batch entries at a time, its lane sums are the host's sums (whose initial value is 0), its keepdims shape casts and
  broadcasts read the same column entry as the host's `broadcast_in_dim`s, and division and inverse square root denote one
  function on both sides.

  `ExpandNormSpec` states that function; `ReferenceValue` reads the reference's run as it; `BlockValue` reads the kernel
  body's stored block as it; `ArrayValue` carries the blocks to the whole result array. The frames are the generated ones
  (the reference's is its run with the result dropped) and the idealisation rewrote nothing.
-/
import proofs.«117044_j84473416778477_1_alg».proof.Defs
import proofs.«117044_j84473416778477_1_alg».proof.Proof.Gen.Kernel
import proofs.«117044_j84473416778477_1_alg».proof.Proof.Gen.Kernel.Skeleton
import proofs.«117044_j84473416778477_1_alg».proof.Proof.Gen.Kernel.Launch
import proofs.«117044_j84473416778477_1_alg».proof.Proof.Gen.Kernel.Points
import proofs.«117044_j84473416778477_1_alg».proof.Proof.Gen.Kernel.Frame
import proofs.«117044_j84473416778477_1_alg».proof.Proof.Gen.KernelIdeal
import proofs.«117044_j84473416778477_1_alg».proof.Proof.Gen.KernelIdeal.Skeleton
import proofs.«117044_j84473416778477_1_alg».proof.Proof.Gen.KernelIdeal.Launch
import proofs.«117044_j84473416778477_1_alg».proof.Proof.Gen.KernelIdeal.Points
import proofs.«117044_j84473416778477_1_alg».proof.Proof.Gen.KernelIdeal.Frame
import proofs.«117044_j84473416778477_1_alg».proof.Proof.Gen.ReferenceIdeal
import proofs.«117044_j84473416778477_1_alg».proof.Proof.Gen.KernelIdeal.Value
import proofs.«117044_j84473416778477_1_alg».proof.Proof.Gen.ReferenceIdeal.Run
import proofs.«117044_j84473416778477_1_alg».proof.Proof.Gen.ReferenceIdeal.Read
import proofs.«117044_j84473416778477_1_alg».proof.Proof.Gen.Pre_finite_inputs
import proofs.«117044_j84473416778477_1_alg».proof.Proof.ArrayValue
import proofs.«117044_j84473416778477_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the four arguments, the kernel's result array and the reference's result are both the
    specification of those arguments. -/
theorem algebraic : Cert.algebraic_KernelIdeal_ReferenceIdeal := by
  intro m ρ m' ρ' _ hagree
  refine ⟨fun c => Cert.KernelIdeal.ArrayValue.outArr m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v24_eq _ _ _ _).trans (Cert.ReferenceIdeal.RefValue.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
